-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256x128 : Shape := ⟨2, ![256, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256x128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S50000x512 : Shape := ⟨2, ![50000, 512]⟩
abbrev S800000 : Shape := ⟨1, ![800000]⟩
abbrev S512x256 : Shape := ⟨2, ![512, 256]⟩
abbrev S256x128 : Shape := ⟨2, ![256, 128]⟩
abbrev S50000x256 : Shape := ⟨2, ![50000, 256]⟩
abbrev S2000x512 : Shape := ⟨2, ![2000, 512]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S50000x128 : Shape := ⟨2, ![50000, 128]⟩
abbrev S2000x128 : Shape := ⟨2, ![2000, 128]⟩
abbrev S800000x128 : Shape := ⟨2, ![800000, 128]⟩

abbrev nBuf : Space → Nat
  | .hbm => 41
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256x128, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .hbm, ⟨24, _⟩ => ⟨S50000x128, .f32⟩
  | .hbm, ⟨25, _⟩ => ⟨S800000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S256x128, .f32⟩
  | .local _ .vmem, ⟨12, _⟩ => ⟨S2000x128, .f32⟩
  | .local _ .vmem, ⟨13, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v14) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256x128 : Shape := ⟨2, ![256, 128]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S50000x128 : Shape := ⟨2, ![50000, 128]⟩
abbrev S800000x128 : Shape := ⟨2, ![800000, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256x128, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S_, .f32⟩
  | .hbm, ⟨24, _⟩ => ⟨S50000x256, .f32⟩
  | .hbm, ⟨25, _⟩ => ⟨S50000x256, .f32⟩
  | .hbm, ⟨26, _⟩ => ⟨S50000x128, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Layers.lean ====
/-
  The two-layer graph network both programs compute, as one function of the six argument arrays over the extended reals.

  A layer multiplies the node features by a weight matrix (`rowsTimes`: entry (r, c) is the sum over k of
  x[r, k] · w[k, c]), then aggregates along the edges (`aggregate256`, `aggregate128`): every edge e carries the row
  of its source node scaled by the edge's weight, and the rows are summed into the edge's destination node — a gather
  by the (wrapped) source indices, a product with the weight column broadcast along the row, and a scatter-add into a
  zero array. The first layer ends with max(·, 0). The aggregation is kept as the printed composition of host
  operations: both programs apply exactly this composition, so it is never opened.
-/
import proofs.«168990_j88613765251764_1_alg».proof.Proof.Gen.KernelIdeal
import Idealize.ShloMosaic.PureOps.Ideal
import Idealize.ShloMosaic.Lib.ValueIdx

noncomputable section

open scoped BigOperators

namespace Cert.Layers

open Idealize.ShloMosaic Idealize.ShloMosaic.ValueIdx
open Cert.KernelIdeal Cert.KernelIdeal.Facts₀

/-- The product of an `M × K` array by a `K × N` array, entry by entry: the sum over the shared index. -/
def rowsTimes {M K N : ℕ} (x : FVec Ideal ⟨2, ![M, K]⟩ .f32) (w : FVec Ideal ⟨2, ![K, N]⟩ .f32) :
    FVec Ideal ⟨2, ![M, N]⟩ .f32 :=
  fun j => ∑ k : Fin K, x (ix2 (j 0) k) * w (ix2 k (j 1))

/-- A source index below zero counts from the end: the number of nodes is added to it. -/
def wrapped (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The edge aggregation of 256-wide node rows: gather the source rows, scale each by its edge's weight, add each into
    its destination row of a zero array. -/
def aggregate256 (h : FVec Ideal S50000x256 .f32) (src dst : IVec S800000 32) (w : FVec Ideal S800000 .f32) :
    FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (mulf (broadcastInDim S800000x256 ![0, 1] bcast_S800000x1_S800000x256_0_1 (broadcastInDim S800000x1 ![0] bcast_S800000_S800000x1_0 w))
      (Host.gather gather_S50000x256_S800000x1_S800000x256_1_0_n_n_0_1_1256 h
        (broadcastInDim S800000x1 ![0] bcast_S800000_S800000x1_0 (wrapped src))))

/-- The same aggregation of 128-wide node rows. -/
def aggregate128 (h : FVec Ideal S50000x128 .f32) (src dst : IVec S800000 32) (w : FVec Ideal S800000 .f32) :
    FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 h
        (broadcastInDim S800000x1 ![0] bcast_S800000_S800000x1_0 (wrapped src))))

/-- max(·, 0), entry by entry. -/
def positivePart (x : FVec Ideal S50000x256 .f32) : FVec Ideal S50000x256 .f32 :=
  maximumf x (broadcastInDim S50000x256 ![] bcast_S_S50000x256 (constant S_ .f32 0x00000000#32))

/-- The network: two layers, the first with the positive part. -/
def network (x : FVec Ideal S50000x512 .f32) (src dst : IVec S800000 32) (w : FVec Ideal S800000 .f32)
    (w1 : FVec Ideal S512x256 .f32) (w2 : FVec Ideal S256x128 .f32) : FVec Ideal S50000x128 .f32 :=
  aggregate128 (rowsTimes (positivePart (aggregate256 (rowsTimes x w1) src dst w)) w2) src dst w

end Cert.Layers

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.LibHostDot.lean ====
/-
  A plain `M × K` by `K × N` product on the host (`stablehlo.dot_general`, the left operand's second axis contracted with
  the right operand's first), read at an entry at the ideal instance (floats are extended reals): the sum over `k` of
  `x[p, k] · w[k, q]`. The one-axis contraction index is re-indexed by its coordinate.
-/
import proofs.«168990_j88613765251764_1_alg».proof.Proof.LibPlainMatmul
import Idealize.ShloMosaic.PureOps.Ideal.Laws
import Idealize.ShloMosaic.Lib.ValueIdx

noncomputable section

open scoped BigOperators

namespace Cert.HostDot

open Idealize.ShloMosaic Idealize.ShloMosaic.ValueIdx

/-- A plain host product at explicit coordinates, for any dimension record equal to the plain one. -/
theorem dotGeneral_ix2 {φ₁ φ₂ : FTy} {M K N : ℕ} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (p : Fin M) (q : Fin N) :
    Host.dotGeneral d prec x w (ix2 p q) = ∑ k : Fin K, x (ix2 p k) * w (ix2 k q) := by
  subst hd
  show FloatOps.dotGeneral (DotDims.plain M K N) prec .single x w (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact Cert.Gnn.plain_lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact Cert.Gnn.plain_rhs_col M K N _ _)
  rw [el, er]

end Cert.HostDot

end
-- ==== Proof.FirstProduct.lean ====
/-
  The first kernel region: the node features times the first weight matrix, 2000 rows per grid point.

  Point t loads rows 2000·t … 2000·t + 1999 of the features and the whole weight matrix, and stores their product on the
  matrix unit (accumulated into zeros) to the same rows of the result. On the extended reals the rounding of both
  operands to bf16 is the identity, so entry (p, q) of the stored block is the sum over k of x[2000·t + p, k] · w[k, q]:
  the entry of the whole product `rowsTimes x w` at row 2000·t + p. The 25 blocks tile the 50000 rows, so after the region
  the result array is `rowsTimes x w`, whatever the buffers held when the region was entered.
-/
import proofs.«168990_j88613765251764_1_alg».proof.Proof.Gen.KernelIdeal.Frame
import proofs.«168990_j88613765251764_1_alg».proof.Proof.Layers
import proofs.«168990_j88613765251764_1_alg».proof.Proof.LibHostDot
import Idealize.ShloMosaic.Lib.Pipeline.Value
import Idealize.ShloMosaic.Lib.KernelVsHost

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FirstProduct

open Cert.KernelIdeal Cert.KernelIdeal.Gen Cert.Layers

variable (V : (c : Dev nD) → (b : Ref sig .tc) → Buf (Elt Ideal) ((c : Thread nD τ).loc b))

/-- The two arrays the region reads, as the region finds them: the features and the first weight matrix. -/
abbrev xarr (c : Dev nD) : FVec Ideal S50000x512 .f32 := V c main_arg0
abbrev warr (c : Dev nD) : FVec Ideal S512x256 .f32 := V c main_arg4

theorem hz : (![0, 0] : Fin 2 → Nat) = fun _ => 0 := funext fun a => by fin_cases a <;> rfl

/-- The body's stored value at an entry: the block's row times the weight's column (rounding to bf16 is the identity on
    the extended reals, and the matrix unit's product into zeros is the plain sum). -/
theorem payload_entry (xb : Vec Ideal S2000x512 .f32) (wb : Vec Ideal S512x256 .f32) (p : Fin 2000) (q : Fin 256) :
    k0_pay1 xb wb (ix2 p q) = ∑ k : Fin 512, xb (ix2 p k) * wb (ix2 k q) := by
  unfold k0_pay1
  rw [matmul_zero_eq_dotGeneral]
  exact Cert.HostDot.dotGeneral_ix2 _ rfl none _ _ p q

/-- Where the blocks of point `t` sit: the features' and the result's row block `t`, the one block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of the whole product. -/
theorem flushed_eq (c : Dev nD) (t : Fin cfg0.N) :
    (dat0 V c).flushed 2 t = ((cfg0.win 2).blk t).view.read (Elt Ideal) (rowsTimes (xarr V c) (warr V c)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  funext j
  obtain ⟨p, q, rfl⟩ : ∃ (p : Fin 2000) (q : Fin 256), j = ix2 p q := ⟨j 0, j 1, eq_ix2 j⟩
  refine (payload_entry (iblk0 V c 0 t) (iblk0 V c 1 t) p q).trans ?_
  show ∑ k : Fin 512, xarr V c (((cfg0.win 0).blk t).view.emb (ix2 p k)) * warr V c (((cfg0.win 1).blk t).view.emb (ix2 k q))
      = ∑ k : Fin 512, xarr V c (ix2 ((((cfg0.win 2).blk t).view.emb (ix2 p q)) 0) k)
        * warr V c (ix2 k ((((cfg0.win 2).blk t).view.emb (ix2 p q)) 1))
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  exact congrArg₂ (· * ·) (congrArg (xarr V c) hx) (congrArg (warr V c) hw)

/-- An index of the result array lies in point `t`'s block iff each coordinate lies in the block's range. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- Row r lies in the block of point r / 2000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the region the result array is the whole product. -/
theorem final (c : Dev nD) : (dat0 V c).arrAt 2 cfg0.N = rowsTimes (xarr V c) (warr V c) :=
  (dat0 V c).arrAt_eq_of_cover 2 (rowsTimes (xarr V c) (warr V c)) (fun t _ => flushed_eq V c t) cover

end Cert.KernelIdeal.FirstProduct

end
-- ==== Proof.ReluRegion.lean ====
/-
  The second kernel region: each of the 25 grid points loads 2000 rows of the aggregated hidden features and stores
  their positive part, max(x, 0), to the same rows of the result. The blocks tile the 50000 rows, so after the region
  the result array is the positive part of the whole input array, whatever the buffers held when the region was entered.
-/
import proofs.«168990_j88613765251764_1_alg».proof.Proof.Gen.KernelIdeal.Frame
import proofs.«168990_j88613765251764_1_alg».proof.Proof.Layers
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.ReluRegion

open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's stored value: the loaded block's positive part (the shape cast is of a shape to itself). -/
theorem payload (x : Vec Ideal S2000x256 .f32) :
    k1_pay1 x = maximumf x (broadcast S2000x256 (Scalar.ofBits .f32 0x00000000#32)) := by
  unfold k1_pay1
  simp only [shapeCast_self]

/-- Point `t` reads and writes row block `t`; there is one column block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is its block of the positive part of the input array. -/
theorem flushed_eq (c : Dev nD) (t : Fin cfg1.N) :
    (dat1 V c).flushed 1 t = ((cfg1.win 1).blk t).view.read (Elt Ideal) (positivePart (V c main_v13)) := by
  show (cfg1.win 1).cut (grid1.coords t) ((dat1 V c).after 1 t) = _
  rw [after1_1]
  unfold out1_1
  rw [View.canon_unit_zero hz]
  simp only [View.ld_unit_zero (S := S2000x256) hz]
  rw [payload]
  obtain ⟨e0, e1, e2, e3⟩ := idx_facts t
  funext j
  show FloatOps.maximumf (F := Ideal) ((V c main_v13 : FVec Ideal S50000x256 .f32) (((cfg1.win 0).blk t).view.emb j)) (Scalar.ofBits .f32 0x00000000#32)
    = FloatOps.maximumf (F := Ideal) ((V c main_v13 : FVec Ideal S50000x256 .f32) (((cfg1.win 1).blk t).view.emb j)) (Scalar.ofBits .f32 0x00000000#32)
  have h0 : ((cfg1.win 0).blk t).view.emb j = ((cfg1.win 1).blk t).view.emb j := by
    funext a; apply Fin.ext
    match a with
    | ⟨0, _⟩ => show win1_0.index t (0 : Fin 2) * 2000 + 1 * (j 0).val = win1_1.index t (0 : Fin 2) * 2000 + 1 * (j 0).val; omega
    | ⟨1, _⟩ => show win1_0.index t (1 : Fin 2) * 256 + 1 * (j 1).val = win1_1.index t (1 : Fin 2) * 256 + 1 * (j 1).val; omega
  rw [h0]

/-- An index of the result array lies in point `t`'s block iff each coordinate lies in the block's range. -/
theorem mem_blk (t : Fin cfg1.N) (i : S50000x256.Idx) :
    i ∈ ((cfg1.win 1).blk t).view.set ↔ ∀ a : Fin 2, win1_1.index t a * S2000x256.size a ≤ (i a).val
      ∧ (i a).val < win1_1.index t a * S2000x256.size a + S2000x256.size a := by
  show i ∈ ((View.whole main_v14).slice (win1_1.rect t)).set ↔ _
  rw [View.set_slice_whole, Rect.mem_set_unit]
  exact Iff.rfl

/-- Row r lies in the block of point r / 2000. -/
theorem cover (i : S50000x256.Idx) :
    ∃ t : Fin cfg1.N, (cfg1.win 1).flush t = true ∧ i ∈ ((cfg1.win 1).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, e2, e3⟩ := idx_facts t
  have ht : t.val = (i 0).val / 2000 := rfl
  refine ⟨t, flush1_1 t, ?_⟩
  rw [mem_blk]
  intro a
  match a with
  | ⟨0, _⟩ => show win1_1.index t (0 : Fin 2) * 2000 ≤ (i 0).val ∧ (i 0).val < win1_1.index t (0 : Fin 2) * 2000 + 2000; omega
  | ⟨1, _⟩ => show win1_1.index t (1 : Fin 2) * 256 ≤ (i 1).val ∧ (i 1).val < win1_1.index t (1 : Fin 2) * 256 + 256; omega

/-- After the region the result array is the positive part of the input array. -/
theorem final (c : Dev nD) : (dat1 V c).arrAt 1 cfg1.N = positivePart (V c main_v13) :=
  (dat1 V c).arrAt_eq_of_cover 1 (positivePart (V c main_v13)) (fun t _ => flushed_eq V c t) cover

end Cert.KernelIdeal.ReluRegion

end
-- ==== Proof.SecondProduct.lean ====
/-
  The third kernel region: the hidden features times the second weight matrix, 2000 rows per grid point.

  Point t loads rows 2000·t … 2000·t + 1999 of the hidden features (a [50000, 256] array) and the whole [256, 128] weight
  matrix, and stores their product on the matrix unit, accumulated into zeros, to the same rows of the [50000, 128]
  result. The loaded block is first cast to its own shape, which changes nothing; on the extended reals the rounding of
  both operands to bf16 is the identity. So entry (p, q) of the stored block is the sum over k of
  h[2000·t + p, k] · w[k, q], the entry of `rowsTimes h w` at row 2000·t + p, and since the 25 blocks tile the rows the
  result array after the region is `rowsTimes h w`.
-/
import proofs.«168990_j88613765251764_1_alg».proof.Proof.Gen.KernelIdeal.Frame
import proofs.«168990_j88613765251764_1_alg».proof.Proof.Layers
import proofs.«168990_j88613765251764_1_alg».proof.Proof.LibHostDot
import Idealize.ShloMosaic.Lib.Pipeline.Value
import Idealize.ShloMosaic.Lib.KernelVsHost

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.SecondProduct

open Cert.KernelIdeal Cert.KernelIdeal.Gen Cert.Layers

variable (V : (c : Dev nD) → (b : Ref sig .tc) → Buf (Elt Ideal) ((c : Thread nD τ).loc b))

/-- The two arrays the region reads, as the region finds them: the hidden features and the second weight matrix. -/
abbrev harr (c : Dev nD) : FVec Ideal S50000x256 .f32 := V c main_v14
abbrev warr (c : Dev nD) : FVec Ideal S256x128 .f32 := V c main_arg5

theorem hz : (![0, 0] : Fin 2 → Nat) = fun _ => 0 := funext fun a => by fin_cases a <;> rfl

/-- The body's stored value at an entry: the block's row times the weight's column. -/
theorem payload_entry (hb : Vec Ideal S2000x256 .f32) (wb : Vec Ideal S256x128 .f32) (p : Fin 2000) (q : Fin 128) :
    k2_pay1 hb wb (ix2 p q) = ∑ k : Fin 256, hb (ix2 p k) * wb (ix2 k q) := by
  unfold k2_pay1
  simp only [shapeCast_self]
  rw [matmul_zero_eq_dotGeneral]
  exact Cert.HostDot.dotGeneral_ix2 _ rfl none _ _ p q

/-- Where the blocks of point `t` sit: the hidden features' and the result's row block `t`, the one block of the weights. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is its block of the whole product. -/
theorem flushed_eq (c : Dev nD) (t : Fin cfg2.N) :
    (dat2 V c).flushed 2 t = ((cfg2.win 2).blk t).view.read (Elt Ideal) (rowsTimes (harr V c) (warr V c)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (payload_entry (iblk2 V c 0 t) (iblk2 V c 1 t) p q).trans ?_
  show ∑ k : Fin 256, harr V c (((cfg2.win 0).blk t).view.emb (ix2 p k)) * warr V c (((cfg2.win 1).blk t).view.emb (ix2 k q))
      = ∑ k : Fin 256, harr V c (ix2 ((((cfg2.win 2).blk t).view.emb (ix2 p q)) 0) k)
        * warr V c (ix2 k ((((cfg2.win 2).blk t).view.emb (ix2 p q)) 1))
  refine Finset.sum_congr rfl fun k _ => ?_
  have hh : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 256 + 1 * k.val = k.val; omega
  have hw : ((cfg2.win 1).blk t).view.emb (ix2 k q) = ix2 k ((((cfg2.win 2).blk t).view.emb (ix2 p q)) 1) := by
    funext a; apply Fin.ext
    match a with
    | ⟨0, _⟩ => show win2_1.index t (0 : Fin 2) * 256 + 1 * k.val = k.val; omega
    | ⟨1, _⟩ => show win2_1.index t (1 : Fin 2) * 128 + 1 * q.val = win2_2.index t (1 : Fin 2) * 128 + 1 * q.val; omega
  exact congrArg₂ (· * ·) (congrArg (harr V c) hh) (congrArg (warr V c) hw)

/-- An index of the result array lies in point `t`'s block iff each coordinate lies in the block's range. -/
theorem mem_blk (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v15).slice (win2_2.rect t)).set ↔ _
  rw [View.set_slice_whole, Rect.mem_set_unit]
  exact Iff.rfl

/-- Row r lies in the block of point r / 2000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region the result array is the whole product. -/
theorem final (c : Dev nD) : (dat2 V c).arrAt 2 cfg2.N = rowsTimes (harr V c) (warr V c) :=
  (dat2 V c).arrAt_eq_of_cover 2 (rowsTimes (harr V c) (warr V c)) (fun t _ => flushed_eq V c t) cover

end Cert.KernelIdeal.SecondProduct

end
-- ==== Proof.KernelResult.lean ====
/-
  The idealized kernel's result buffer after the run, as `network` of the six argument arrays.

  The run leaves the result buffer at the contents of the last boundary of @main. Read backwards: the second
  aggregation's host operations apply to what the third region leaves (the second product), that region's input is what
  the second region leaves (the positive part), whose input is what the first aggregation's host operations leave, applied
  to what the first region leaves (the first product of the arguments). The index and weight arguments are written by
  nothing, so at every boundary they hold their launch contents.
-/
import proofs.«168990_j88613765251764_1_alg».proof.Proof.KernelRun
import proofs.«168990_j88613765251764_1_alg».proof.Proof.FirstProduct
import proofs.«168990_j88613765251764_1_alg».proof.Proof.ReluRegion
import proofs.«168990_j88613765251764_1_alg».proof.Proof.SecondProduct
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen Cert.KernelIdeal.GenRun Cert.Layers

variable (m : (ℓ : Loc nD τ sig) → Buf (Elt Ideal) ℓ) (ρ : Dev nD → PrngReg)

/-- The first region leaves the first product of the launch contents of the features and the first weight matrix. -/
theorem first_product (c : Dev nD) :
    W1 m ρ c (Proc.devRef .tc main_v0)
      = rowsTimes (m ((c : Thread nD τ).loc main_arg0) : FVec Ideal S50000x512 .f32) (m ((c : Thread nD τ).loc main_arg4) : FVec Ideal S512x256 .f32) :=
  (W1_arr m ρ c 2).trans (FirstProduct.final (V0 m ρ) c)

/-- The host operations between the first and the second region aggregate what the first region left. -/
theorem first_aggregate (c : Dev nD) :
    W2 m ρ c (Proc.devRef .tc main_v13)
      = aggregate256 (W1 m ρ c (Proc.devRef .tc main_v0)) (W1 m ρ c (Proc.devRef .tc main_arg1))
          (W1 m ρ c (Proc.devRef .tc main_arg2)) (W1 m ρ c (Proc.devRef .tc main_arg3)) := by
  show StableHlo.after hostOps1 (W1 m ρ c) (Proc.devRef .tc main_v13) = _
  after_results
  rfl

/-- The second region leaves the positive part of its input array. -/
theorem positive (c : Dev nD) :
    W3 m ρ c (Proc.devRef .tc main_v14) = positivePart (W2 m ρ c (Proc.devRef .tc main_v13)) :=
  (W3_arr m ρ c 1).trans (ReluRegion.final (V2 m ρ) c)

/-- The third region leaves the product of its input array by the second weight matrix. -/
theorem second_product (c : Dev nD) :
    W4 m ρ c (Proc.devRef .tc main_v15)
      = rowsTimes (W3 m ρ c (Proc.devRef .tc main_v14) : FVec Ideal S50000x256 .f32) (W3 m ρ c (Proc.devRef .tc main_arg5) : FVec Ideal S256x128 .f32) :=
  (W4_arr m ρ c 2).trans (SecondProduct.final (V3 m ρ) c)

/-- The host operations after the third region aggregate what it left. -/
theorem second_aggregate (c : Dev nD) :
    W5 m ρ c (Proc.devRef .tc main_v28)
      = aggregate128 (W4 m ρ c (Proc.devRef .tc main_v15)) (W4 m ρ c (Proc.devRef .tc main_arg1))
          (W4 m ρ c (Proc.devRef .tc main_arg2)) (W4 m ρ c (Proc.devRef .tc main_arg3)) := by
  show StableHlo.after hostOps3 (W4 m ρ c) (Proc.devRef .tc main_v28) = _
  after_results
  rfl

/-- The result buffer at the last boundary is the network of the arguments' launch contents. -/
theorem result (c : Dev nD) :
    W5 m ρ c (Proc.devRef .tc main_v28)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold network
  rw [second_aggregate m ρ c, W4_main_arg1 m ρ c, W4_main_arg2 m ρ c, W4_main_arg3 m ρ c, second_product m ρ c,
    W3_main_arg5 m ρ c, positive m ρ c, first_aggregate m ρ c, W1_main_arg1 m ρ c, W1_main_arg2 m ρ c, W1_main_arg3 m ρ c,
    first_product m ρ c]

end Cert.KernelIdeal.Result

end
-- ==== Proof.ProductForms.lean ====
/-
  The host's plain product of an `M × K` array by a `K × N` array is `rowsTimes`: at every entry both are the sum over
  the contracted index of the operands' products.
-/
import proofs.«168990_j88613765251764_1_alg».proof.Proof.Layers
import proofs.«168990_j88613765251764_1_alg».proof.Proof.LibHostDot

noncomputable section

open scoped BigOperators

namespace Cert.Layers

open Idealize.ShloMosaic Idealize.ShloMosaic.ValueIdx

theorem hostDot_eq_rowsTimes {M K N : ℕ} (d : DotDims ⟨2, ![M, K]⟩ ⟨2, ![K, N]⟩ ⟨2, ![M, N]⟩)
    (hd : d = DotDims.plain M K N) (x : FVec Ideal ⟨2, ![M, K]⟩ .f32) (w : FVec Ideal ⟨2, ![K, N]⟩ .f32) :
    Host.dotGeneral d none x w = rowsTimes x w := by
  funext j
  obtain ⟨p, q, rfl⟩ : ∃ (p : Fin M) (q : Fin N), j = ix2 p q := ⟨j 0, j 1, eq_ix2 j⟩
  exact Cert.HostDot.dotGeneral_ix2 d hd none x w p q

end Cert.Layers

end
-- ==== Proof.RefValue.lean ====
/-
  The reference's result, read off its run: the same two layers, each product a host `dot_general`. Replacing the two
  host products by `rowsTimes` leaves, operation for operation, the composition `network` names.
-/
import proofs.«168990_j88613765251764_1_alg».proof.Proof.Gen.ReferenceIdeal
import proofs.«168990_j88613765251764_1_alg».proof.Proof.ProductForms

noncomputable section

namespace Cert.ReferenceIdeal.RefValue

open Idealize.ShloMosaic
open Cert.ReferenceIdeal Cert.ReferenceIdeal.Facts₀ Cert.Layers

theorem result_eq (x : FVec Ideal S50000x512 .f32) (src dst : IVec S800000 32) (w : FVec Ideal S800000 .f32)
    (w1 : FVec Ideal S512x256 .f32) (w2 : FVec Ideal S256x128 .f32) :
    Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 w)) (Host.gather gather_S50000x128_S800000x1_S800000x128_1_0_n_n_0_1_1128 (Host.dotGeneral dot_S50000x256_S256x128_S50000x128_1_0_0_1_n_n none (maximumf (Host.scatterAdd scatter_S50000x256_S800000x1_S800000x256_1_0_0_1 (broadcastInDim S50000x256 ![] bcast_S_S50000x256 (constant (F := Ideal) S_ .f32 0x00000000#32)) (broadcastInDim S800000x1 ![0] bcast_S800000_S800000x1_0 dst) (mulf (broadcastInDim S800000x256 ![0, 1] bcast_S800000x1_S800000x256_0_1 (broadcastInDim S800000x1 ![0] bcast_S800000_S800000x1_0 w)) (Host.gather gather_S50000x256_S800000x1_S800000x256_1_0_n_n_0_1_1256 (Host.dotGeneral dot_S50000x512_S512x256_S50000x256_1_0_0_1_n_n none x w1) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x256 ![] bcast_S_S50000x256 (constant (F := Ideal) S_ .f32 0x00000000#32))) w2) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))
    = network x src dst w w1 w2 := by
  rw [hostDot_eq_rowsTimes dot_S50000x512_S512x256_S50000x256_1_0_0_1_n_n rfl,
    hostDot_eq_rowsTimes dot_S50000x256_S256x128_S50000x128_1_0_0_1_n_n rfl]
  rfl

end Cert.ReferenceIdeal.RefValue

end
-- ==== Proof.lean ====
/-
  The certificate of a two-layer graph network: features · W1, aggregated along the edges, positive part, · W2,
  aggregated along the edges again.

  The kernel's program computes the two products and the positive part in three TensorCore regions of 25 row blocks each
  and the two edge aggregations (gather by source, scale by the edge weight, scatter-add by destination) on the host; the
  reference computes everything on the host. Over the extended reals the two agree: a region's blocks tile its result
  array, each block of a product region is the corresponding rows of the whole product (rounding the operands to bf16 is
  the identity there and the matrix unit's accumulation into zeros is the plain sum), the positive part is taken entry
  by entry, and the aggregations are the same composition of host operations in both programs, applied to equal arrays.
  Both results are `Cert.Layers.network` of the argument arrays. No law of arithmetic beyond the reading of a product
  as a sum is used, so the finiteness of the inputs is never opened.

  The three frames are the generated ones (the reference's is its run with the result dropped); the idealization
  rewrote nothing, so there is nothing to preserve.
-/
import proofs.«168990_j88613765251764_1_alg».proof.Defs
import proofs.«168990_j88613765251764_1_alg».proof.Proof.Gen.Kernel
import proofs.«168990_j88613765251764_1_alg».proof.Proof.Gen.Kernel.Frame
import proofs.«168990_j88613765251764_1_alg».proof.Proof.Gen.KernelIdeal
import proofs.«168990_j88613765251764_1_alg».proof.Proof.Gen.KernelIdeal.Frame
import proofs.«168990_j88613765251764_1_alg».proof.Proof.Gen.ReferenceIdeal
import proofs.«168990_j88613765251764_1_alg».proof.Proof.Gen.ReferenceIdeal.Run
import proofs.«168990_j88613765251764_1_alg».proof.Proof.Gen.Pre_finite_inputs
import proofs.«168990_j88613765251764_1_alg».proof.Proof.KernelResult
import proofs.«168990_j88613765251764_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at the network of the (agreeing) argument arrays. -/
theorem algebraic : Cert.algebraic_KernelIdeal_ReferenceIdeal := by
  intro m ρ m' ρ' _ hagree
  refine ⟨fun c => Cert.KernelIdeal.Gen.W5 m ρ c (Proc.devRef .tc Cert.KernelIdeal.main_v28),
    Cert.KernelIdeal.GenRun.run_main m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  refine Eq.trans ?_ (Cert.KernelIdeal.Result.result m ρ c).symm
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
